-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x3x512x512 : Shape := ⟨4, ![64, 3, 512, 512]⟩
abbrev S_ : Shape := ⟨0, ![]⟩

class Facts : Prop where
  bcast_S_S64x3x512x512 : S_.BroadcastsInDim S64x3x512x512 (![] : Fin 0 → Fin S64x3x512x512.rank)
  reducesTo_S64x3x512x512_S_d0_1_2_3 : S64x3x512x512.ReducesTo [0, 1, 2, 3] S_
  h_S_ : 0 < S_.numel

variable [Facts]

def fn {F : FTy → Type} [FloatOps F] (main_arg0 : FVec F S64x3x512x512 .f32) (main_arg1 : FVec F S64x3x512x512 .f32) : IVec S_ 1 :=
  let main_v0 : FVec F S64x3x512x512 .f32 := Host.absf main_arg0
  let main_cst : FVec F S_ .f32 := constant S_ .f32 0x7F800000#32
  let main_v1 : FVec F S64x3x512x512 .f32 := broadcastInDim S64x3x512x512 ![] bcast_S_S64x3x512x512 main_cst
  let main_v2 : IVec S64x3x512x512 1 := cmpf .olt main_v0 main_v1
  let main_c : IVec S_ 1 := constantI S_ 1 1#1
  let main_v3 : IVec S_ 1 := (fun x v => Host.reduce IntOp.andi x v reducesTo_S64x3x512x512_S_d0_1_2_3 h_S_) main_v2 main_c
  let main_v4 : FVec F S64x3x512x512 .f32 := Host.absf main_arg1
  let main_cst_0 : FVec F S_ .f32 := constant S_ .f32 0x7F800000#32
  let main_v5 : FVec F S64x3x512x512 .f32 := broadcastInDim S64x3x512x512 ![] bcast_S_S64x3x512x512 main_cst_0
  let main_v6 : IVec S64x3x512x512 1 := cmpf .olt main_v4 main_v5
  let main_c_1 : IVec S_ 1 := constantI S_ 1 1#1
  let main_v7 : IVec S_ 1 := (fun x v => Host.reduce IntOp.andi x v reducesTo_S64x3x512x512_S_d0_1_2_3 h_S_) main_v6 main_c_1
  let main_v8 : IVec S_ 1 := andi main_v3 main_v7
  main_v8
-- ==== Kernel.lean ====
abbrev S64x3x512x512 : Shape := ⟨4, ![64, 3, 512, 512]⟩
abbrev S24576x2048 : Shape := ⟨2, ![24576, 2048]⟩
abbrev S768x2048 : Shape := ⟨2, ![768, 2048]⟩

abbrev nBuf : Space → Nat
  | .hbm => 6
  | .vmem => 6
  | .smem => 0
  | _ => 0

abbrev bufTy : (tb : Table) → Fin (tcTables nBuf tb) → BufTy
  | .hbm, ⟨0, _⟩ => ⟨S64x3x512x512, .f32⟩
  | .hbm, ⟨1, _⟩ => ⟨S64x3x512x512, .f32⟩
  | .hbm, ⟨2, _⟩ => ⟨S24576x2048, .f32⟩
  | .hbm, ⟨3, _⟩ => ⟨S24576x2048, .f32⟩
  | .hbm, ⟨4, _⟩ => ⟨S24576x2048, .f32⟩
  | .hbm, ⟨5, _⟩ => ⟨S64x3x512x512, .f32⟩
  | .local _ .vmem, ⟨0, _⟩ => ⟨S768x2048, .f32⟩
  | .local _ .vmem, ⟨1, _⟩ => ⟨S768x2048, .f32⟩
  | .local _ .vmem, ⟨2, _⟩ => ⟨S768x2048, .f32⟩
  | .local _ .vmem, ⟨3, _⟩ => ⟨S768x2048, .f32⟩
  | .local _ .vmem, ⟨4, _⟩ => ⟨S768x2048, .f32⟩
  | .local _ .vmem, ⟨5, _⟩ => ⟨S768x2048, .f32⟩
  | _, _ => ⟨S64x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S768x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S64x3x512x512_S24576x2048 : S64x3x512x512.ShapeCasts S24576x2048
  inb_S768x2048_S768x2048_0_0 : ∀ a, (![0, 0] : Fin 2 → Nat) a + S768x2048.size a ≤ S768x2048.size a
  h_S768x2048 : 0 < S768x2048.numel
  shapeCasts_S768x2048_S768x2048 : S768x2048.ShapeCasts S768x2048
  shapeCasts_S24576x2048_S64x3x512x512 : S24576x2048.ShapeCasts S64x3x512x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S768x2048.size a ≤ S24576x2048.size a
  hwx0_0 : ∀ i : grid0.Coords, EltTy.bits .f32 = 32 ∨ (Rect.block (s := S24576x2048) S768x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S768x2048.size a ≤ S24576x2048.size a
  hwx0_1 : ∀ i : grid0.Coords, EltTy.bits .f32 = 32 ∨ (Rect.block (s := S24576x2048) S768x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S768x2048.size a ≤ S24576x2048.size a
  hwx0_2 : ∀ i : grid0.Coords, EltTy.bits .f32 = 32 ∨ (Rect.block (s := S24576x2048) S768x2048.size (cc0_transform_2 i) (hinb0_2 i)).WholeWords (EltTy.packing .f32)

variable [Facts₀]

abbrev win0_0 : Pipeline.Window sig grid0 :=
  Pipeline.Window.ofSpec (Memref.whole main_v0) S768x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S768x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S768x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where
  halias0_2 : Pipeline.Aliased win0 0 2

variable [Facts]
-- ==== ReferenceIdeal.lean ====
abbrev S64x3x512x512 : Shape := ⟨4, ![64, 3, 512, 512]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S64x3x512x512, .f32⟩
  | .hbm, ⟨1, _⟩ => ⟨S64x3x512x512, .f32⟩
  | .hbm, ⟨2, _⟩ => ⟨S_, .f32⟩
  | .hbm, ⟨3, _⟩ => ⟨S64x3x512x512, .f32⟩
  | .hbm, ⟨4, _⟩ => ⟨S64x3x512x512, .f32⟩
  | .hbm, ⟨5, _⟩ => ⟨S64x3x512x512, .f32⟩
  | _, _ => ⟨S64x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  bcast_S_S64x3x512x512 : S_.BroadcastsInDim S64x3x512x512 (![] : Fin 0 → Fin S64x3x512x512.rank)

variable [Facts₀]

class Facts : Prop extends Facts₀ where

variable [Facts]
-- ==== Proof.Noise.lean ====
/-
  The function both programs compute, and the one fact about it that the kernel's change of layout needs.

  Each program returns, entry by entry, `a + c · b`, where `c` is the binary32 number nearest one tenth (the word
  0x3DCCCCCD, the same word on both sides, so it is never evaluated). The function acts entry by entry, so it
  commutes with any re-reading of the entries in row-major order under another shape; in particular, re-laying
  both arguments under a second shape, applying the function there, and re-laying the result back under the first
  shape is the function applied to the arguments as they were.
-/
import Idealize.ShloMosaic.PureOps.Ideal
import Idealize.ShloMosaic.Lib.Pipeline.Value

noncomputable section

namespace Cert.Noise

open Idealize.ShloMosaic

variable {F : FTy → Type} [FloatOps F]

/-- `a + c · b`, entry by entry, with `c` the float whose word is 0x3DCCCCCD. -/
def noisy {s : Shape} (a b : FVec F s .f32) : FVec F s .f32 :=
  fun i => FloatOps.addf (a i) (FloatOps.mulf (FloatOps.ofBits .f32 0x3DCCCCCD#32) (b i))

/-- An entrywise function commutes with a row-major re-reading: both sides read the arguments at the one index the
    re-reading assigns to `j`. -/
theorem noisy_shapeCast {s t : Shape} (a b : FVec F s .f32) (h : s.ShapeCasts t) :
    shapeCast t (noisy a b) h = noisy (shapeCast t a h) (shapeCast t b h) := rfl

/-- Re-lay both arguments under `t`, apply the function, re-lay the result back under `s`: the function of the
    arguments themselves, because the two re-readings are inverse to each other. -/
theorem noisy_there_and_back {s t : Shape} (a b : FVec F s .f32) (h : s.ShapeCasts t) (h' : t.ShapeCasts s) :
    shapeCast s (noisy (shapeCast t a h) (shapeCast t b h)) h' = noisy a b := by
  rw [← noisy_shapeCast, shapeCast_shapeCast]

end Cert.Noise

end
-- ==== Proof.KernelValue.lean ====
/-
  What the idealized kernel program returns: `a + c · b` of its two arguments, entry by entry.

  The program re-lays each [64, 3, 512, 512] argument as a [24576, 2048] matrix (the same entries in row-major
  order), runs the body on 32 blocks of 768 whole rows, and re-lays the [24576, 2048] result back. At block `t`
  the body reads rows 768·t … 768·t + 767 of both matrices and stores `x + c · y` entry by entry, so what it
  writes back is that block of the matrix `noisy A B`, `A` and `B` the two re-laid arguments. Row `r` lies in
  block `r / 768`, so the blocks cover the matrix and the result matrix IS `noisy A B`. Re-laid back, that is
  `noisy` of the arguments themselves (`Cert.Noise.noisy_there_and_back`).
-/
import proofs.«429474_j35510789603412_3_alg».proof.Proof.Gen.KernelIdeal.Frame
import proofs.«429474_j35510789603412_3_alg».proof.Proof.Noise
import Idealize.ShloMosaic.Lib.Pipeline.Value
import Idealize.ShloMosaic.Lib.StableHlo.Run

noncomputable section

namespace Cert.KernelIdeal.NoiseValue

open Cert.KernelIdeal Cert.KernelIdeal.Gen Idealize.ShloMosaic Idealize.ShloMosaic.TcCoe Idealize.SL.Sem
open Idealize.ShloMosaic.Pipeline (Dat)
open Cert.Noise

variable (m : (ℓ : Loc nD τ sig) → Buf (Elt Ideal) ℓ) (ρ : Dev nD → PrngReg)

/-- The body's one load rectangle and one store rectangle start at the block's origin. -/
theorem origin : (![0, 0] : Fin 2 → Nat) = fun _ => 0 := funext fun a => by fin_cases a <;> rfl

/-- The body's stored value is `x + c · y` of its two loaded blocks: the two shape casts are to the blocks' own
    shape, and the splat of `c` reads `c` at every entry. -/
theorem pay_eq (x y : Vec Ideal S768x2048 .f32) : k0_pay1 (F := Ideal) x y = noisy x y := by
  unfold k0_pay1
  simp only [shapeCast_self]
  rfl

/-- The first matrix the region reads is the first argument re-laid. -/
theorem V_main_v0 (c : Dev nD) : (V m c main_v0 : S24576x2048.Idx → Elt Ideal .f32)
    = shapeCast S24576x2048 (m ((c : Thread nD τ).loc main_arg0)) shapeCasts_S64x3x512x512_S24576x2048 := by
  show StableHlo.after hostOps0 (fun b => m (c, b)) (Proc.devRef .tc main_v0) = _
  after_results
  rfl

/-- The second matrix the region reads is the second argument re-laid. -/
theorem V_main_v1 (c : Dev nD) : (V m c main_v1 : S24576x2048.Idx → Elt Ideal .f32)
    = shapeCast S24576x2048 (m ((c : Thread nD τ).loc main_arg1)) shapeCasts_S64x3x512x512_S24576x2048 := by
  show StableHlo.after hostOps0 (fun b => m (c, b)) (Proc.devRef .tc main_v1) = _
  after_results
  rfl

/-- The three windows move together, one block of 768 rows per grid point, all 2048 columns wide. -/
theorem idx_facts : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2) :=
  (by decide +kernel : ∀ t : Fin grid0.N, _)

/-- Every one of the 32 row blocks is some grid point's. -/
theorem idx_onto : ∀ q : Fin 32, ∃ t : Fin cfg0.N, win0_2.index t = ![q.val, 0] :=
  (by decide +kernel : ∀ q : Fin 32, ∃ t : Fin grid0.N, win0_2.index t = ![q.val, 0])

/-- The result matrix: `noisy A B`, `A` and `B` the two matrices the region reads. -/
abbrev resultMatrix (c : Dev nD) : S24576x2048.Idx → Elt Ideal .f32 :=
  noisy (F := Ideal) (s := S24576x2048) (V m c main_v0 : S24576x2048.Idx → Elt Ideal .f32)
    (V m c main_v1 : S24576x2048.Idx → Elt Ideal .f32)

/-- What grid point `t` writes back is block `t` of the result matrix. -/
theorem flushed_eq (c : Dev nD) (t : Fin cfg0.N) :
    (dats m 0 c).flushed 2 t = ((cfg0.win 2).blk t).view.read (Elt Ideal) (resultMatrix m c) := by
  show (cfg0.win 2).cut (grid0.coords t) ((dats m 0 c).after 2 t) = _
  rw [after0_2]
  unfold out0_2
  rw [View.canon_unit_zero origin]
  simp only [View.ld_unit_zero (S := S768x2048) origin]
  rw [pay_eq]
  obtain ⟨e0, e1, e2, e3⟩ := idx_facts t
  funext j
  show FloatOps.addf (F := Ideal) (φ := .f32) (V m c main_v0 (((cfg0.win 0).blk t).view.emb j))
        (FloatOps.mulf (F := Ideal) (φ := .f32) (FloatOps.ofBits .f32 0x3DCCCCCD#32)
          (V m c main_v1 (((cfg0.win 1).blk t).view.emb j)))
      = FloatOps.addf (F := Ideal) (φ := .f32) (V m c main_v0 (((cfg0.win 2).blk t).view.emb j))
        (FloatOps.mulf (F := Ideal) (φ := .f32) (FloatOps.ofBits .f32 0x3DCCCCCD#32)
          (V m c main_v1 (((cfg0.win 2).blk t).view.emb j)))
  -- entry `j` of each input block sits where entry `j` of the output block sits: row 768·t + j₀, column j₁
  have h0 : ((cfg0.win 0).blk t).view.emb j = ((cfg0.win 2).blk t).view.emb j := by
    funext a; apply Fin.ext
    match a with
    | ⟨0, _⟩ => show win0_0.index t (0 : Fin 2) * 768 + 1 * (j 0).val = win0_2.index t (0 : Fin 2) * 768 + 1 * (j 0).val; omega
    | ⟨1, _⟩ => show win0_0.index t (1 : Fin 2) * 2048 + 1 * (j 1).val = win0_2.index t (1 : Fin 2) * 2048 + 1 * (j 1).val; omega
  have h1 : ((cfg0.win 1).blk t).view.emb j = ((cfg0.win 2).blk t).view.emb j := by
    funext a; apply Fin.ext
    match a with
    | ⟨0, _⟩ => show win0_1.index t (0 : Fin 2) * 768 + 1 * (j 0).val = win0_2.index t (0 : Fin 2) * 768 + 1 * (j 0).val; omega
    | ⟨1, _⟩ => show win0_1.index t (1 : Fin 2) * 2048 + 1 * (j 1).val = win0_2.index t (1 : Fin 2) * 2048 + 1 * (j 1).val; omega
  rw [h0, h1]

/-- An index of the matrix is in grid point `t`'s block iff each coordinate is in the block's range on its axis. -/
theorem mem_blk (t : Fin cfg0.N) (i : S24576x2048.Idx) :
    i ∈ ((cfg0.win 2).blk t).view.set ↔ ∀ a : Fin 2, win0_2.index t a * S768x2048.size a ≤ (i a).val
      ∧ (i a).val < win0_2.index t a * S768x2048.size a + S768x2048.size a := by
  show i ∈ ((View.whole main_v2).slice (win0_2.rect t)).set ↔ _
  rw [View.set_slice_whole, Rect.mem_set_unit]
  exact Iff.rfl

/-- Row `r` lies in block `r / 768`, every column in the one column block: the 32 blocks cover the matrix. -/
theorem cover (i : S24576x2048.Idx) :
    ∃ t : Fin cfg0.N, (cfg0.win 2).flush t = true ∧ i ∈ ((cfg0.win 2).blk t).view.set := by
  have hi0 : (i 0).val < 24576 := (i 0).isLt
  have hi1 : (i 1).val < 2048 := (i 1).isLt
  obtain ⟨t, ht⟩ := idx_onto ⟨(i 0).val / 768, by omega⟩
  have q0 : win0_2.index t (0 : Fin 2) = (i 0).val / 768 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 768 ≤ (i 0).val ∧ (i 0).val < win0_2.index t (0 : Fin 2) * 768 + 768; omega
  | ⟨1, _⟩ => show win0_2.index t (1 : Fin 2) * 2048 ≤ (i 1).val ∧ (i 1).val < win0_2.index t (1 : Fin 2) * 2048 + 2048; omega

/-- The result matrix after the region. -/
theorem final (c : Dev nD) : (dats m 0 c).arrAt 2 cfg0.N = resultMatrix m c :=
  (dats m 0 c).arrAt_eq_of_cover 2 (resultMatrix m c) (fun t _ => flushed_eq m c t) cover

/-- What the program returns: the result matrix re-laid back, which is `noisy` of the two arguments. -/
theorem result_eq (c : Dev nD) :
    (Pipeline.afterTail₀ cfgs (dats m) 0 (V0 m) [hostOps1] c main_v3 : S64x3x512x512.Idx → Elt Ideal .f32)
      = noisy (F := Ideal) (s := S64x3x512x512) (m ((c : Thread nD τ).loc main_arg0)) (m ((c : Thread nD τ).loc main_arg1)) := by
  unfold Pipeline.afterTail₀
  show StableHlo.after hostOps1 _ (Proc.devRef .tc main_v3) = _
  after_results
  have h2 : Pipeline.withArrays (cfgs 0).spec c (V0 m c) (fun w => (dats m 0 c).arrAt w (cfgs 0).N)
      (Proc.devRef .tc main_v2) = resultMatrix m c :=
    (Pipeline.withArrays_arr spec0 launch0.win.arr_inj c _ _ 2).trans (final m c)
  rw [h2]
  show shapeCast S64x3x512x512 (resultMatrix m c) shapeCasts_S24576x2048_S64x3x512x512 = _
  unfold resultMatrix
  rw [V_main_v0, V_main_v1]
  exact noisy_there_and_back _ _ _ _

/-- The program's run, read: it ends with its result at `noisy` of the two arguments and the arguments unchanged.
    The result and the arguments are no array of the region, so each is what the re-laying after the region leaves. -/
theorem run : θ_run defs (onTc (τ := τ) (main (F := Ideal))) ⟨m, fun _ => 0, ρ⟩ fun r => ∀ c : Dev nD,
      r.2.mem ((c.tc : Thread nD τ).loc main_v3)
        = noisy (F := Ideal) (s := S64x3x512x512) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v3 (Pipeline.mem_restRefs_of main_v3 (by decide) (by decide))).trans (result_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.NoiseValue

end
-- ==== Proof.RefValue.lean ====
/-
  What the idealized reference returns: `a + c · b` of its two arguments, entry by entry.

  Its four operations are the scalar `c`, its broadcast over [64, 3, 512, 512], the entrywise product with the
  second argument and the entrywise sum with the first. The broadcast of a scalar reads the scalar at every entry, so
  entry `i` of the result is `a i + c · b i`.
-/
import proofs.«429474_j35510789603412_3_alg».proof.Proof.Gen.ReferenceIdeal.Read
import proofs.«429474_j35510789603412_3_alg».proof.Proof.Noise

noncomputable section

namespace Cert.ReferenceIdeal.NoiseValue

open Cert.ReferenceIdeal Cert.ReferenceIdeal.Read Idealize.ShloMosaic
open Cert.Noise

/-- The reference's last stage is `noisy` of the arguments. -/
theorem val_eq (a b : (⟨S64x3x512x512, .f32⟩ : BufTy).Contents (Elt Ideal)) :
    val_main_v2 (F := Ideal) a b = noisy (F := Ideal) (s := S64x3x512x512) a b := by
  funext i
  rw [val_main_v2_apply, val_main_v1_apply, val_main_v0_apply, val_main_cst_apply]
  rfl

end Cert.ReferenceIdeal.NoiseValue

end
-- ==== Proof.lean ====
/-
  The kernel adds scaled noise: `out = noised + c · noise`, entry by entry over [64, 3, 512, 512], with `c` the
  binary32 number nearest one tenth. It does so on the arrays re-laid as [24576, 2048] matrices, 32 blocks of 768
  whole rows, and re-lays the result back. The reference computes `noised + c · noise` directly, with the same word
  for `c`. Both results are the one function `Cert.Noise.noisy` of the arguments:

  * the kernel's, because the body stores `x + c · y` of the two blocks it loads, the blocks cover the matrix, and an
    entrywise function commutes with re-laying (Proof/KernelValue.lean);
  * the reference's, because a scalar's broadcast reads the scalar at every entry (Proof/RefValue.lean).

  No law of arithmetic is used — the two sides are the same expression at every entry — so the precondition is never
  opened. The idealized kernel is the kernel's own text read over the extended reals, with nothing rewritten, so
  `preserves` has nothing to state. The three frames are the programs' runs with the result forgotten.
-/
import proofs.«429474_j35510789603412_3_alg».proof.Defs
import proofs.«429474_j35510789603412_3_alg».proof.Proof.Gen.Kernel
import proofs.«429474_j35510789603412_3_alg».proof.Proof.Gen.Kernel.Skeleton
import proofs.«429474_j35510789603412_3_alg».proof.Proof.Gen.Kernel.Launch
import proofs.«429474_j35510789603412_3_alg».proof.Proof.Gen.Kernel.Points
import proofs.«429474_j35510789603412_3_alg».proof.Proof.Gen.Kernel.Frame
import proofs.«429474_j35510789603412_3_alg».proof.Proof.Gen.KernelIdeal
import proofs.«429474_j35510789603412_3_alg».proof.Proof.Gen.KernelIdeal.Skeleton
import proofs.«429474_j35510789603412_3_alg».proof.Proof.Gen.KernelIdeal.Launch
import proofs.«429474_j35510789603412_3_alg».proof.Proof.Gen.KernelIdeal.Points
import proofs.«429474_j35510789603412_3_alg».proof.Proof.Gen.KernelIdeal.Frame
import proofs.«429474_j35510789603412_3_alg».proof.Proof.Gen.ReferenceIdeal
import proofs.«429474_j35510789603412_3_alg».proof.Proof.Gen.ReferenceIdeal.Run
import proofs.«429474_j35510789603412_3_alg».proof.Proof.Gen.ReferenceIdeal.Read
import proofs.«429474_j35510789603412_3_alg».proof.Proof.Gen.Pre_finite_inputs
import proofs.«429474_j35510789603412_3_alg».proof.Proof.KernelValue
import proofs.«429474_j35510789603412_3_alg».proof.Proof.RefValue
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end at `noisy` of those arguments. -/
theorem algebraic : Cert.algebraic_KernelIdeal_ReferenceIdeal := by
  intro m ρ m' ρ' _ hagree
  refine ⟨_, Cert.KernelIdeal.NoiseValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.NoiseValue.val_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
